-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S400 : Shape := ⟨1, ![400]⟩
abbrev S400x1 : Shape := ⟨2, ![400, 1]⟩

abbrev nBuf : Space → Nat
  | .hbm => 11
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S1x128, .f32⟩
  | .hbm, ⟨8, _⟩ => ⟨S1x64, .f32⟩
  | .hbm, ⟨9, _⟩ => ⟨S10000x64, .f32⟩
  | .hbm, ⟨10, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S1x128, .f32⟩
  | .local _ .vmem, ⟨7, _⟩ => ⟨S128x64, .f32⟩
  | .local _ .vmem, ⟨8, _⟩ => ⟨S400x64, .f32⟩
  | .local _ .vmem, ⟨9, _⟩ => ⟨S400x64, .f32⟩
  | .local _ .vmem, ⟨10, _⟩ => ⟨S400x10000, .f32⟩
  | .local _ .vmem, ⟨11, _⟩ => ⟨S400x10000, .f32⟩
  | .local _ .vmem, ⟨12, _⟩ => ⟨S10000x64, .f32⟩
  | .local _ .vmem, ⟨13, _⟩ => ⟨S1x64, .f32⟩
  | .local _ .vmem, ⟨14, _⟩ => ⟨S400x64, .f32⟩
  | .local _ .vmem, ⟨15, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128_S1x128 : S128.ShapeCasts S1x128
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Spec.lean ====
/-
  The two-layer graph convolution on the extended reals, one output row at a time.

  With `adj` the [10000, 10000] adjacency, `x` the [10000, 128] features, `W1`, `b1`, `W2`, `b2` the two layers' weights:

    support  s1[q, k] = Σ_r x[q, r] · W1[r, k]
    hidden   h[k]     = max (Σ_q a[q] · s1[q, k] + b1[k]) 0          for a row `a` of `adj`
    layer 1  s2[j]    = Σ_k h[k] · W2[k, j]
    logits   o[j]     = Σ_q a[q] · s2[q, j] + b2[j]
    result   o[j] − M − log Σ_n exp (o[n] − M),   M the fold of `max` over the row from the word of −∞.

  Every stage of a row depends on `adj` only through that row (and, for the logits, through the rows of layer 1's whole
  result), so a block of 400 rows of the result is this function of the matching 400 rows of `adj`. Sums over a `Fin`
  range are unordered; nothing here needs the inputs finite.
-/
import Idealize.ShloMosaic.PureOps.Ideal
import Idealize.ShloMosaic.Lib.ValueIdx

noncomputable section

namespace Cert.Gcn

open Idealize.ShloMosaic Idealize.ShloMosaic.ValueIdx

/-- `x · W1` at row `q`, column `k`. -/
def support (x : FVec Ideal ⟨2, ![10000, 128]⟩ .f32) (w1 : FVec Ideal ⟨2, ![128, 128]⟩ .f32) (q : Fin 10000) (k : Fin 128) : EReal :=
  ∑ r : Fin 128, x (ix2 q r) * w1 (ix2 r k)

/-- The hidden activation of one node: the adjacency row `a` against column `k` of the support, plus the bias, clipped
    below at the zero word. -/
def hidden (a : Fin 10000 → EReal) (s1 : Fin 10000 → Fin 128 → EReal) (b1 : Fin 128 → EReal) (k : Fin 128) : EReal :=
  max (∑ q : Fin 10000, a q * s1 q k + b1 k) (Ideal.ofBits .f32 0x00000000#32)

/-- Layer 1's result for one node, column `j`: the hidden activation against `W2`. -/
def layer1 (a : Fin 10000 → EReal) (s1 : Fin 10000 → Fin 128 → EReal) (b1 : Fin 128 → EReal)
    (w2 : FVec Ideal ⟨2, ![128, 64]⟩ .f32) (j : Fin 64) : EReal :=
  ∑ k : Fin 128, hidden a s1 b1 k * w2 (ix2 k j)

/-- The logits of one node, column `j`: the adjacency row against column `j` of layer 1's result, plus the bias. -/
def logits (a : Fin 10000 → EReal) (s2 : Fin 10000 → Fin 64 → EReal) (b2 : Fin 64 → EReal) (j : Fin 64) : EReal :=
  ∑ q : Fin 10000, a q * s2 q j + b2 j

/-- A row's maximum, folded from the word of −∞. -/
def rowMax (o : Fin 64 → EReal) : EReal :=
  (Finset.univ : Finset (Fin 64)).fold max (Ideal.ofBits .f32 0xFF800000#32) o

/-- The log-softmax of a row at column `j`: shifted by the row's maximum, minus the log of the sum of the shifted row's
    exponentials. -/
def logSoftmax (o : Fin 64 → EReal) (j : Fin 64) : EReal :=
  (o j - rowMax o) - Ideal.log (∑ n : Fin 64, Ideal.exp (o n - rowMax o))

/-- Layer 1's whole result at row `q`, column `j`, from the argument arrays. -/
def s2Of (x : FVec Ideal ⟨2, ![10000, 128]⟩ .f32) (adj : FVec Ideal ⟨2, ![10000, 10000]⟩ .f32)
    (w1 : FVec Ideal ⟨2, ![128, 128]⟩ .f32) (b1 : FVec Ideal ⟨1, ![128]⟩ .f32) (w2 : FVec Ideal ⟨2, ![128, 64]⟩ .f32)
    (q : Fin 10000) (j : Fin 64) : EReal :=
  layer1 (fun q' => adj (ix2 q q')) (support x w1) (fun k => b1 (ix1 k)) w2 j

/-- The network's result at row `p`, column `j`, from the argument arrays. -/
def outAt (x : FVec Ideal ⟨2, ![10000, 128]⟩ .f32) (adj : FVec Ideal ⟨2, ![10000, 10000]⟩ .f32)
    (w1 : FVec Ideal ⟨2, ![128, 128]⟩ .f32) (b1 : FVec Ideal ⟨1, ![128]⟩ .f32) (w2 : FVec Ideal ⟨2, ![128, 64]⟩ .f32)
    (b2 : FVec Ideal ⟨1, ![64]⟩ .f32) (p : Fin 10000) (j : Fin 64) : EReal :=
  logSoftmax (logits (fun q => adj (ix2 p q)) (s2Of x adj w1 b1 w2) (fun n => b2 (ix1 n))) j

/-- The network's result as one [10000, 64] array. -/
def out (x : FVec Ideal ⟨2, ![10000, 128]⟩ .f32) (adj : FVec Ideal ⟨2, ![10000, 10000]⟩ .f32)
    (w1 : FVec Ideal ⟨2, ![128, 128]⟩ .f32) (b1 : FVec Ideal ⟨1, ![128]⟩ .f32) (w2 : FVec Ideal ⟨2, ![128, 64]⟩ .f32)
    (b2 : FVec Ideal ⟨1, ![64]⟩ .f32) : FVec Ideal ⟨2, ![10000, 64]⟩ .f32 :=
  fun i => outAt x adj w1 b1 w2 b2 (i 0) (i 1)

theorem out_apply (x : FVec Ideal ⟨2, ![10000, 128]⟩ .f32) (adj : FVec Ideal ⟨2, ![10000, 10000]⟩ .f32)
    (w1 : FVec Ideal ⟨2, ![128, 128]⟩ .f32) (b1 : FVec Ideal ⟨1, ![128]⟩ .f32) (w2 : FVec Ideal ⟨2, ![128, 64]⟩ .f32)
    (b2 : FVec Ideal ⟨1, ![64]⟩ .f32) (p : Fin 10000) (j : Fin 64) :
    out x adj w1 b1 w2 b2 (ix2 p j) = outAt x adj w1 b1 w2 b2 p j := rfl

end Cert.Gcn

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.Payload.lean ====
/-
  The first two kernel bodies' stored values, read at one entry, on the extended reals.

  • the first body stores `x · W1`: entry (q, k) is the support `Σ_r x[q, r] · W1[r, k]`;
  • the second stores, for its block `a` of 400 adjacency rows, layer 1's result of each row: entry (p, j) depends on the
    block only through row `p`.

  A matrix product into the zero accumulator is the plain sum over the contracted coordinate.
-/
import proofs.«100969_g15564961480953_cont_week2b_1515_2_alg».proof.Proof.Gen.KernelIdeal.Skeleton
import proofs.«100969_g15564961480953_cont_week2b_1515_2_alg».proof.Proof.Spec
import proofs.«100969_g15564961480953_cont_week2b_1515_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ### The product `x · W1` ([10000, 128] by [128, 128]): its operand indices, one axis at a time -/

private theorem lhs_xw_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
private theorem lhs_xw_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
private theorem rhs_xw_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
private theorem rhs_xw_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- This product into the zero accumulator, at (i, j): the sum over the contracted coordinate `k` of the left operand at
    (i, k) times the right at (k, j). -/
theorem matmul_xw_apply (l : FVec Ideal S10000x128 .f32) (r : FVec Ideal S128x128 .f32) (i : Fin 10000) (j : Fin 128) :
    matmul dot_S10000x128_S128x128_S10000x128_1_0_0_1_n_n none l r (constant S10000x128 .f32 0x00000000#32) (ix2 i j)
      = ∑ k : Fin 128, l (ix2 i k) * r (ix2 k j) := by
  refine (Ideal.matmul_constant_zero_apply dot_S10000x128_S128x128_S10000x128_1_0_0_1_n_n none l r (ix2 i j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 i j) ((contrEquiv1 dot_S10000x128_S128x128_S10000x128_1_0_0_1_n_n 128 rfl rfl).symm k) = ix2 i k := funext fun a => Fin.ext (by
    match a with
    | ⟨0, _⟩ => exact lhs_xw_0 _ _
    | ⟨1, _⟩ => exact (lhs_xw_1 _ _).trans hk)
  have er : dot_S10000x128_S128x128_S10000x128_1_0_0_1_n_n.rhsIdx (ix2 i j) ((contrEquiv1 dot_S10000x128_S128x128_S10000x128_1_0_0_1_n_n 128 rfl rfl).symm k) = ix2 k j := funext fun a => Fin.ext (by
    match a with
    | ⟨0, _⟩ => exact (rhs_xw_0 _ _).trans hk
    | ⟨1, _⟩ => exact rhs_xw_1 _ _)
  rw [el, er]

/-! ### The adjacency block against the support ([400, 10000] by [10000, 128]): its operand indices, one axis at a time -/

private theorem lhs_as_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
private theorem lhs_as_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
private theorem rhs_as_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
private theorem rhs_as_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- This product into the zero accumulator, at (i, j): the sum over the contracted coordinate `k` of the left operand at
    (i, k) times the right at (k, j). -/
theorem matmul_as_apply (l : FVec Ideal S400x10000 .f32) (r : FVec Ideal S10000x128 .f32) (i : Fin 400) (j : Fin 128) :
    matmul dot_S400x10000_S10000x128_S400x128_1_0_0_1_n_n none l r (constant S400x128 .f32 0x00000000#32) (ix2 i j)
      = ∑ k : Fin 10000, l (ix2 i k) * r (ix2 k j) := by
  refine (Ideal.matmul_constant_zero_apply dot_S400x10000_S10000x128_S400x128_1_0_0_1_n_n none l r (ix2 i j)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 i j) ((contrEquiv1 dot_S400x10000_S10000x128_S400x128_1_0_0_1_n_n 10000 rfl rfl).symm k) = ix2 i k := funext fun a => Fin.ext (by
    match a with
    | ⟨0, _⟩ => exact lhs_as_0 _ _
    | ⟨1, _⟩ => exact (lhs_as_1 _ _).trans hk)
  have er : dot_S400x10000_S10000x128_S400x128_1_0_0_1_n_n.rhsIdx (ix2 i j) ((contrEquiv1 dot_S400x10000_S10000x128_S400x128_1_0_0_1_n_n 10000 rfl rfl).symm k) = ix2 k j := funext fun a => Fin.ext (by
    match a with
    | ⟨0, _⟩ => exact (rhs_as_0 _ _).trans hk
    | ⟨1, _⟩ => exact rhs_as_1 _ _)
  rw [el, er]

/-! ### The hidden activation against `W2` ([400, 128] by [128, 64]): its operand indices, one axis at a time -/

private theorem lhs_hw_0 (i : S400x64.Idx) (q : dot_S400x128_S128x64_S400x64_1_0_0_1_n_n.contr.Idx) :
    (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl
private theorem lhs_hw_1 (i : S400x64.Idx) (q : dot_S400x128_S128x64_S400x64_1_0_0_1_n_n.contr.Idx) :
    (dot_S400x128_S128x64_S400x64_1_0_0_1_n_n.lhsIdx i q 1).val = (q ⟨0, by decide⟩).val :=
  dot_S400x128_S128x64_S400x64_1_0_0_1_n_n.lhsIdx_val_of_single rfl i q
private theorem rhs_hw_0 (i : S400x64.Idx) (q : dot_S400x128_S128x64_S400x64_1_0_0_1_n_n.contr.Idx) :
    (dot_S400x128_S128x64_S400x64_1_0_0_1_n_n.rhsIdx i q 0).val = (q ⟨0, by decide⟩).val :=
  dot_S400x128_S128x64_S400x64_1_0_0_1_n_n.rhsIdx_val_of_single rfl i q
private theorem rhs_hw_1 (i : S400x64.Idx) (q : dot_S400x128_S128x64_S400x64_1_0_0_1_n_n.contr.Idx) :
    (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl

/-- This product into the zero accumulator, at (i, j): the sum over the contracted coordinate `k` of the left operand at
    (i, k) times the right at (k, j). -/
theorem matmul_hw_apply (l : FVec Ideal S400x128 .f32) (r : FVec Ideal S128x64 .f32) (i : Fin 400) (j : Fin 64) :
    matmul dot_S400x128_S128x64_S400x64_1_0_0_1_n_n none l r (constant S400x64 .f32 0x00000000#32) (ix2 i j)
      = ∑ k : Fin 128, l (ix2 i k) * r (ix2 k j) := by
  refine (Ideal.matmul_constant_zero_apply dot_S400x128_S128x64_S400x64_1_0_0_1_n_n none l r (ix2 i j)).trans ?_
  rw [← Equiv.sum_comp (contrEquiv1 dot_S400x128_S128x64_S400x64_1_0_0_1_n_n 128 rfl rfl).symm]
  refine Finset.sum_congr rfl fun k _ => ?_
  have hk := contrEquiv1_symm_val dot_S400x128_S128x64_S400x64_1_0_0_1_n_n 128 rfl rfl k
  have el : dot_S400x128_S128x64_S400x64_1_0_0_1_n_n.lhsIdx (ix2 i j) ((contrEquiv1 dot_S400x128_S128x64_S400x64_1_0_0_1_n_n 128 rfl rfl).symm k) = ix2 i k := funext fun a => Fin.ext (by
    match a with
    | ⟨0, _⟩ => exact lhs_hw_0 _ _
    | ⟨1, _⟩ => exact (lhs_hw_1 _ _).trans hk)
  have er : dot_S400x128_S128x64_S400x64_1_0_0_1_n_n.rhsIdx (ix2 i j) ((contrEquiv1 dot_S400x128_S128x64_S400x64_1_0_0_1_n_n 128 rfl rfl).symm k) = ix2 k j := funext fun a => Fin.ext (by
    match a with
    | ⟨0, _⟩ => exact (rhs_hw_0 _ _).trans hk
    | ⟨1, _⟩ => exact rhs_hw_1 _ _)
  rw [el, er]

/-- The first body's stored value at (q, k): the support. -/
theorem pay0_apply (x : Vec Ideal S10000x128 .f32) (w : Vec Ideal S128x128 .f32) (q : Fin 10000) (k : Fin 128) :
    k0_pay1 (F := Ideal) x w (ix2 q k) = Cert.Gcn.support x w q k := by
  unfold k0_pay1
  exact matmul_xw_apply x w q k

/-- The second body's stored value at (p, j): layer 1 of row `p` of the adjacency block, against the whole support `s1`,
    the bias row `b` and `W2`. -/
theorem pay1_apply (a : Vec Ideal S400x10000 .f32) (s1 : Vec Ideal S10000x128 .f32) (b : Vec Ideal S1x128 .f32)
    (w2 : Vec Ideal S128x64 .f32) (p : Fin 400) (j : Fin 64) :
    k1_pay1 (F := Ideal) a s1 b w2 (ix2 p j)
      = Cert.Gcn.layer1 (fun q => a (ix2 p q)) (fun q k => s1 (ix2 q k)) (fun k => b (ix2 (0 : Fin 1) k)) w2 j := by
  unfold k1_pay1
  refine (matmul_hw_apply _ w2 p j).trans ?_
  unfold Cert.Gcn.layer1
  refine Finset.sum_congr rfl fun k _ => ?_
  refine congrArg (· * w2 (ix2 k j)) ?_
  -- the hidden activation at (p, k): the clipped sum of the adjacency row against the support's column, plus the bias
  refine (maximumf_apply _ _ (ix2 p k)).trans ?_
  unfold Cert.Gcn.hidden
  refine congrArg (max · (Ideal.ofBits .f32 0x00000000#32)) ?_
  refine (addf_apply _ _ (ix2 p k)).trans ?_
  refine congrArg₂ (· + ·) ?_ ?_
  · refine (matmul_as_apply a _ p k).trans ?_
    refine Finset.sum_congr rfl fun q _ => ?_
    exact congrArg (a (ix2 p q) * ·) (congrFun (shapeCast_self s1 _) (ix2 q k))
  · refine (broadcastTo_1b_ab_apply _ _ p k).trans ?_
    exact congrFun (shapeCast_self b _) (ix2 (0 : Fin 1) k)

end Cert.KernelIdeal.Payload

end
-- ==== Proof.PayloadLsm.lean ====
/-
  The third kernel body's stored value, read at one entry, on the extended reals: for its block of 400 adjacency rows, the
  log-softmax of each row's logits; entry (p, j) depends on the block only through row `p`.

  A matrix product into the zero accumulator is the plain sum over the contracted coordinate; a lane maximum is the fold of
  `max` over the row from the accumulator's word; a lane sum from the zero word is the plain sum over the row.
-/
import proofs.«100969_g15564961480953_cont_week2b_1515_2_alg».proof.Proof.Gen.KernelIdeal.Skeleton
import proofs.«100969_g15564961480953_cont_week2b_1515_2_alg».proof.Proof.Spec
import proofs.«100969_g15564961480953_cont_week2b_1515_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ### The adjacency block against layer 1's result (a [400, 10000] by [10000, 64] product): where it reads its operands -/

/-- The left operand's row is the result's row. -/
private theorem al_lhs_row (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide),
    dif_pos (show (0 : Fin S400x10000.rank) ∈ dot_S400x10000_S10000x64_S400x64_1_0_0_1_n_n.lhsNonContracting by decide)]
  rfl

/-- The left operand's column is the contracted coordinate. -/
private theorem al_lhs_col (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q

/-- The right operand's row is the contracted coordinate. -/
private theorem al_rhs_row (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q

/-- The right operand's column is the result's column. -/
private theorem al_rhs_col (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide),
    dif_pos (show (1 : Fin S10000x64.rank) ∈ dot_S400x10000_S10000x64_S400x64_1_0_0_1_n_n.rhsNonContracting by decide)]
  rfl

/-- The product into the zero accumulator, at (p, n): the sum over the contracted coordinate `q` of the left operand at
    (p, q) times the right at (q, n). -/
theorem matmul_al_apply (l : FVec Ideal S400x10000 .f32) (r : FVec Ideal S10000x64 .f32) (p : Fin 400) (n : Fin 64) :
    matmul dot_S400x10000_S10000x64_S400x64_1_0_0_1_n_n none l r (constant S400x64 .f32 0x00000000#32) (ix2 p n)
      = ∑ q : Fin 10000, l (ix2 p q) * r (ix2 q n) := by
  refine (Ideal.matmul_constant_zero_apply dot_S400x10000_S10000x64_S400x64_1_0_0_1_n_n none l r (ix2 p n)).trans ?_
  rw [← Equiv.sum_comp (contrEquiv1 dot_S400x10000_S10000x64_S400x64_1_0_0_1_n_n 10000 rfl rfl).symm]
  refine Finset.sum_congr rfl fun q _ => ?_
  have hq := contrEquiv1_symm_val dot_S400x10000_S10000x64_S400x64_1_0_0_1_n_n 10000 rfl rfl q
  have hl : dot_S400x10000_S10000x64_S400x64_1_0_0_1_n_n.lhsIdx (ix2 p n) ((contrEquiv1 dot_S400x10000_S10000x64_S400x64_1_0_0_1_n_n 10000 rfl rfl).symm q) = ix2 p q :=
    funext fun ax => Fin.ext (by
      match ax with
      | ⟨0, _⟩ => exact al_lhs_row _ _
      | ⟨1, _⟩ => exact (al_lhs_col _ _).trans hq)
  have hr : dot_S400x10000_S10000x64_S400x64_1_0_0_1_n_n.rhsIdx (ix2 p n) ((contrEquiv1 dot_S400x10000_S10000x64_S400x64_1_0_0_1_n_n 10000 rfl rfl).symm q) = ix2 q n :=
    funext fun ax => Fin.ext (by
      match ax with
      | ⟨0, _⟩ => exact (al_rhs_row _ _).trans hq
      | ⟨1, _⟩ => exact al_rhs_col _ _)
  rw [hl, hr]

/-! ### The stages of the third body -/

/-- The logits block: the product plus the bias row, broadcast down the rows. -/
def pay2_logits (a : Vec Ideal S400x10000 .f32) (s2 : Vec Ideal S10000x64 .f32) (b : Vec Ideal S1x64 .f32) :
    FVec Ideal S400x64 .f32 :=
  addf (matmul (φ₁ := .f32) (φ₂ := .f32) dot_S400x10000_S10000x64_S400x64_1_0_0_1_n_n none a (shapeCast S10000x64 s2 shapeCasts_S10000x64_S10000x64) (constant S400x64 .f32 0x00000000#32))
    (broadcastTo S400x64 (shapeCast S1x64 b shapeCasts_S1x64_S1x64) broadcasts_S1x64_S400x64)

/-- A block minus each row's maximum, kept as a column and broadcast back along the row. -/
def pay2_shift (v : FVec Ideal S400x64 .f32) : FVec Ideal S400x64 .f32 :=
  subf v (broadcastTo S400x64
    (shapeCast S400x1 (multiReduction (F := Ideal) .maximumf [1] S400 v 0xFF800000#32 reduces_S400x64_S400 (.inl rfl) rfl)
      shapeCasts_S400_S400x1) broadcasts_S400x1_S400x64)

/-- A block's log-softmax along its rows: the shifted block minus the log of each row's sum of exponentials of it. -/
def pay2_lsm (v : FVec Ideal S400x64 .f32) : FVec Ideal S400x64 .f32 :=
  subf (pay2_shift v) (broadcastTo S400x64
    (log (shapeCast S400x1
      (multiReduction (F := Ideal) .add [1] S400 (exp (pay2_shift v)) 0x00000000#32 reduces_S400x64_S400 (.inl rfl) rfl)
      shapeCasts_S400_S400x1)) broadcasts_S400x1_S400x64)

/-- The third body's stored value is the log-softmax of its logits block. -/
theorem k2_pay1_eq (a : Vec Ideal S400x10000 .f32) (s2 : Vec Ideal S10000x64 .f32) (b : Vec Ideal S1x64 .f32) :
    k2_pay1 (F := Ideal) a s2 b = pay2_lsm (pay2_logits a s2 b) := rfl

/-- The logits block at (p, n): the logits of row `p`. -/
theorem pay2_logits_apply (a : Vec Ideal S400x10000 .f32) (s2 : Vec Ideal S10000x64 .f32) (b : Vec Ideal S1x64 .f32)
    (p : Fin 400) (n : Fin 64) :
    pay2_logits a s2 b (ix2 p n)
      = Cert.Gcn.logits (fun q => a (ix2 p q)) (fun q n => s2 (ix2 q n)) (fun n => b (ix2 (0 : Fin 1) n)) n := by
  unfold pay2_logits Cert.Gcn.logits
  rw [addf_apply, shapeCast_self, shapeCast_self, matmul_al_apply, broadcastTo_1b_ab_apply]

/-- The lane maximum from the word of −∞, at row `p`: the row's maximum. -/
theorem pay2_rowMax_apply (v : FVec Ideal S400x64 .f32) (hφ : FKind.Formats FTy.f32)
    (hacc : (0xFF800000#32 : BitVec 32) = FKind.maximumf.neutral .f32 hφ) (p : Fin 400) :
    multiReduction (F := Ideal) .maximumf [1] S400 v 0xFF800000#32 reduces_S400x64_S400 hφ hacc (ix1 p)
      = Cert.Gcn.rowMax (fun n => v (ix2 p n)) :=
  (Ideal.multiReduction_maximumf_single v 0xFF800000#32 reduces_S400x64_S400 hφ hacc (ix1 p)).trans
    (congrArg (fun o : Fin 64 → EReal => (Finset.univ : Finset (Fin 64)).fold max (Ideal.ofBits .f32 0xFF800000#32) o)
      (funext fun n => congrArg v (funext fun ax => Fin.ext (by
        match ax with
        | ⟨0, _⟩ => rfl
        | ⟨1, _⟩ => rfl))))

/-- The shifted block at (p, c): the entry minus its row's maximum. -/
theorem pay2_shift_apply (v : FVec Ideal S400x64 .f32) (p : Fin 400) (c : Fin 64) :
    pay2_shift v (ix2 p c) = v (ix2 p c) - Cert.Gcn.rowMax (fun n => v (ix2 p n)) := by
  unfold pay2_shift
  rw [subf_apply]
  exact congrArg (fun m : EReal => v (ix2 p c) - m)
    ((Cert.Keepdims.broadcastTo_a1_ab_apply _ broadcasts_S400x1_S400x64 p c).trans
      ((Cert.Keepdims.shapeCast_a_a1_apply _ shapeCasts_S400_S400x1 p 0).trans
        (pay2_rowMax_apply v (.inl rfl) rfl p)))

/-- A block's log-softmax at (p, j): the log-softmax of row `p`. -/
theorem pay2_lsm_apply (v : FVec Ideal S400x64 .f32) (p : Fin 400) (j : Fin 64) :
    pay2_lsm v (ix2 p j) = Cert.Gcn.logSoftmax (fun n => v (ix2 p n)) j := by
  have hsum : multiReduction (F := Ideal) .add [1] S400 (exp (pay2_shift v)) 0x00000000#32 reduces_S400x64_S400 (.inl rfl) rfl (ix1 p)
      = ∑ n : Fin 64, Ideal.exp (v (ix2 p n) - Cert.Gcn.rowMax (fun n => v (ix2 p n))) :=
    (Cert.Keepdims.rowSum_apply (exp (pay2_shift v)) reduces_S400x64_S400 (.inl rfl) rfl p).trans
      (Finset.sum_congr rfl fun n _ => congrArg Ideal.exp (pay2_shift_apply v p n))
  unfold pay2_lsm Cert.Gcn.logSoftmax
  rw [subf_apply, pay2_shift_apply]
  exact congrArg (fun m : EReal => v (ix2 p j) - Cert.Gcn.rowMax (fun n => v (ix2 p n)) - m)
    ((Cert.Keepdims.broadcastTo_a1_ab_apply _ broadcasts_S400x1_S400x64 p j).trans
      (congrArg Ideal.log ((Cert.Keepdims.shapeCast_a_a1_apply _ shapeCasts_S400_S400x1 p 0).trans hsum)))

/-- The third body's stored value at (p, j): the log-softmax of the logits of row `p` of the adjacency block, against the
    whole layer-1 result `s2` and the bias row `b`. -/
theorem pay2_apply (a : Vec Ideal S400x10000 .f32) (s2 : Vec Ideal S10000x64 .f32) (b : Vec Ideal S1x64 .f32)
    (p : Fin 400) (j : Fin 64) :
    k2_pay1 (F := Ideal) a s2 b (ix2 p j)
      = Cert.Gcn.logSoftmax (Cert.Gcn.logits (fun q => a (ix2 p q)) (fun q n => s2 (ix2 q n)) (fun n => b (ix2 (0 : Fin 1) n))) j := by
  rw [k2_pay1_eq, pay2_lsm_apply]
  exact congrArg (fun o => Cert.Gcn.logSoftmax o j) (funext fun n => pay2_logits_apply a s2 b p n)

end Cert.KernelIdeal.Payload

end
-- ==== Proof.Blocks.lean ====
/-
  From blocks to arrays: what each of the three regions leaves in its output array, as one function of the arrays the
  region finds.

  Region 0 has one point and its block is the whole [10000, 128] array: it leaves the support `x · W1`.
  Regions 1 and 2 walk 25 points; point `t` reads rows `400·t … 400·t + 399` of the adjacency and every row of its other
  operands, and writes rows `400·t … 400·t + 399` of its [10000, 64] result. Entry (p, j) of the block written at point
  `t` depends on the adjacency block only through its row `p`, which is row `400·t + p` of the adjacency: so the block is
  rows `400·t …` of ONE whole-array function, and the 25 blocks tile the array (row `r` lies in the block of point `r / 400`).
-/
import proofs.«100969_g15564961480953_cont_week2b_1515_2_alg».proof.Proof.Gen.KernelIdeal.Frame
import proofs.«100969_g15564961480953_cont_week2b_1515_2_alg».proof.Proof.Payload
import proofs.«100969_g15564961480953_cont_week2b_1515_2_alg».proof.Proof.PayloadLsm
import proofs.«100969_g15564961480953_cont_week2b_1515_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- Region 0's one point stages each whole array at block (0, 0). -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The arrays region 0 finds, at their literal types. -/
abbrev feat0 (c : Dev nD) : Vec Ideal S10000x128 .f32 := V c main_arg0
abbrev wgt0 (c : Dev nD) : Vec Ideal S128x128 .f32 := V c main_arg2

/-- The features' block is the whole array. -/
theorem blk0_0_eq (c : Dev nD) (t : Fin cfg0.N) : (iblk0 V c 0 t : Vec Ideal S10000x128 .f32) = feat0 V c := by
  obtain ⟨e0, e1, -⟩ := idx0 t
  funext y
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The first weight matrix's block is the whole matrix. -/
theorem blk0_1_eq (c : Dev nD) (t : Fin cfg0.N) : (iblk0 V c 1 t : Vec Ideal S128x128 .f32) = wgt0 V c := by
  obtain ⟨-, -, e0, e1, -⟩ := idx0 t
  funext y
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The support, from the arrays region 0 finds. -/
def G0 (c : Dev nD) : Vec Ideal S10000x128 .f32 := fun i => Cert.Gcn.support (feat0 V c) (wgt0 V c) (i 0) (i 1)

/-- What region 0's one point writes back is the whole support. -/
theorem flushed0 (c : Dev nD) (t : Fin cfg0.N) :
    (dat0 V c).flushed 2 t = ((cfg0.win 2).blk t).view.read (Elt Ideal) (G0 V c) := by
  obtain ⟨-, -, -, -, e0, e1⟩ := idx0 t
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext y
  obtain ⟨q, k, rfl⟩ : ∃ (q : Fin 10000) (k : Fin 128), y = ix2 q k := ⟨y 0, y 1, eq_ix2 (n0 := 10000) (n1 := 128) y⟩
  show k0_pay1 (iblk0 V c 0 t) (iblk0 V c 1 t) (ix2 q k) = G0 V c (((cfg0.win 2).blk t).view.emb (ix2 q k))
  have hemb : ((cfg0.win 2).blk t).view.emb (ix2 q k) = (ix2 q k : S10000x128.Idx) :=
    funext fun a => Fin.ext (by
      match a with
      | ⟨0, _⟩ => show win0_2.index t (0 : Fin 2) * 10000 + 1 * q.val = q.val; rw [e0]; omega
      | ⟨1, _⟩ => show win0_2.index t (1 : Fin 2) * 128 + 1 * k.val = k.val; rw [e1]; omega)
  rw [hemb]
  refine (Payload.pay0_apply (iblk0 V c 0 t) (iblk0 V c 1 t) q k).trans ?_
  rw [blk0_0_eq V c t, blk0_1_eq V c t]
  rfl

/-- Region 0's one block is its whole output array. -/
theorem cover0 (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  obtain ⟨-, -, -, -, e0, e1⟩ := idx0 t0_0
  refine ⟨t0_0, flush0_2 t0_0, ?_⟩
  show i ∈ ((View.whole main_v0).slice (win0_2.rect t0_0)).set
  rw [View.set_slice_whole, Rect.mem_set_unit]
  intro a
  match a with
  | ⟨0, _⟩ =>
    show win0_2.index t0_0 (0 : Fin 2) * 10000 ≤ (i 0).val ∧ (i 0).val < win0_2.index t0_0 (0 : Fin 2) * 10000 + 10000
    rw [e0]; omega
  | ⟨1, _⟩ =>
    show win0_2.index t0_0 (1 : Fin 2) * 128 ≤ (i 1).val ∧ (i 1).val < win0_2.index t0_0 (1 : Fin 2) * 128 + 128
    rw [e1]; omega

/-- Region 0 leaves the support in its output array. -/
theorem final0 (c : Dev nD) : (dat0 V c).arrAt 2 cfg0.N = G0 V c :=
  (dat0 V c).arrAt_eq_of_cover 2 (G0 V c) (fun t _ => flushed0 V c t) cover0

/-! ## Region 1 -/

/-- The block indices of region 1's windows, decided over its 25 points: the adjacency and the result move one block of
    rows per point, the other operands stay at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The arrays region 1 finds, at their literal types. -/
abbrev adj1 (c : Dev nD) : Vec Ideal S10000x10000 .f32 := V c main_arg1
abbrev sup1 (c : Dev nD) : Vec Ideal S10000x128 .f32 := V c main_v0
abbrev bias1 (c : Dev nD) : Vec Ideal S1x128 .f32 := V c main_v1
abbrev wgt1 (c : Dev nD) : Vec Ideal S128x64 .f32 := V c main_arg4

/-- The adjacency block at point `t` is rows `400·t …` of the adjacency. -/
theorem blk1_0_apply (c : Dev nD) (t : Fin cfg1.N) (p : Fin 400) (q : Fin 10000) (r : Fin 10000)
    (hr : r.val = 400 * t.val + p.val) :
    (iblk1 V c 0 t : Vec Ideal S400x10000 .f32) (ix2 p q) = adj1 V c (ix2 r q) := by
  obtain ⟨e0, e1, -⟩ := idx1 t
  unfold iblk1
  rw [View.read_apply]
  show V c main_arg1 _ = V c main_arg1 _
  refine congrArg (V c main_arg1) (funext fun a => Fin.ext ?_)
  match a with
  | ⟨0, _⟩ => show win1_0.index t (0 : Fin 2) * 400 + 1 * p.val = r.val; rw [e0, hr]; omega
  | ⟨1, _⟩ => show win1_0.index t (1 : Fin 2) * 10000 + 1 * q.val = q.val; rw [e1]; omega

/-- The support's block at every point is the whole support. -/
theorem blk1_1_apply (c : Dev nD) (t : Fin cfg1.N) (q : Fin 10000) (k : Fin 128) :
    (iblk1 V c 1 t : Vec Ideal S10000x128 .f32) (ix2 q k) = sup1 V c (ix2 q k) := by
  obtain ⟨-, -, e0, e1, -⟩ := idx1 t
  unfold iblk1
  rw [View.read_apply]
  show V c main_v0 _ = V c main_v0 _
  refine congrArg (V c main_v0) (funext fun a => Fin.ext ?_)
  match a with
  | ⟨0, _⟩ => show win1_1.index t (0 : Fin 2) * 10000 + 1 * q.val = q.val; rw [e0]; omega
  | ⟨1, _⟩ => show win1_1.index t (1 : Fin 2) * 128 + 1 * k.val = k.val; rw [e1]; omega

/-- The bias row's block at every point is the whole row. -/
theorem blk1_2_apply (c : Dev nD) (t : Fin cfg1.N) (u : Fin 1) (k : Fin 128) :
    (iblk1 V c 2 t : Vec Ideal S1x128 .f32) (ix2 u k) = bias1 V c (ix2 u k) := by
  obtain ⟨-, -, -, -, e0, e1, -⟩ := idx1 t
  unfold iblk1
  rw [View.read_apply]
  show V c main_v1 _ = V c main_v1 _
  refine congrArg (V c main_v1) (funext fun a => Fin.ext ?_)
  match a with
  | ⟨0, _⟩ => show win1_2.index t (0 : Fin 2) * 1 + 1 * u.val = u.val; rw [e0]; omega
  | ⟨1, _⟩ => show win1_2.index t (1 : Fin 2) * 128 + 1 * k.val = k.val; rw [e1]; omega

/-- The second weight matrix's block at every point is the whole matrix. -/
theorem blk1_3_eq (c : Dev nD) (t : Fin cfg1.N) : (iblk1 V c 3 t : Vec Ideal S128x64 .f32) = wgt1 V c := by
  obtain ⟨-, -, -, -, -, -, e0, e1, -⟩ := idx1 t
  funext y
  unfold iblk1
  rw [View.read_apply]
  show V c main_arg4 _ = V c main_arg4 _
  refine congrArg (V c main_arg4) (funext fun a => Fin.ext ?_)
  match a with
  | ⟨0, _⟩ => show win1_3.index t (0 : Fin 2) * 128 + 1 * (y 0).val = (y 0).val; rw [e0]; omega
  | ⟨1, _⟩ => show win1_3.index t (1 : Fin 2) * 64 + 1 * (y 1).val = (y 1).val; rw [e1]; omega

/-- Layer 1's whole result, from the arrays region 1 finds. -/
def G1 (c : Dev nD) : Vec Ideal S10000x64 .f32 := fun i =>
  Cert.Gcn.layer1 (fun q => adj1 V c (ix2 (i 0) q)) (fun q k => sup1 V c (ix2 q k)) (fun k => bias1 V c (ix2 (0 : Fin 1) k))
    (wgt1 V c) (i 1)

/-- What point `t` of region 1 writes back is block `t` of `G1`. -/
theorem flushed1 (c : Dev nD) (t : Fin cfg1.N) :
    (dat1 V c).flushed 4 t = ((cfg1.win 4).blk t).view.read (Elt Ideal) (G1 V c) := by
  obtain ⟨-, -, -, -, -, -, -, -, e0, e1⟩ := idx1 t
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz,
    View.ld_unit_zero (S := S1x128) hz, View.ld_unit_zero (S := S128x64) hz]
  funext y
  obtain ⟨p, j, rfl⟩ : ∃ (p : Fin 400) (j : Fin 64), y = ix2 p j := ⟨y 0, y 1, eq_ix2 (n0 := 400) (n1 := 64) y⟩
  have hr : 400 * t.val + p.val < 10000 := by
    have := t.isLt; have hN : cfg1.N = 25 := N_1; have := p.isLt; omega
  show k1_pay1 (iblk1 V c 0 t) (iblk1 V c 1 t) (iblk1 V c 2 t) (iblk1 V c 3 t) (ix2 p j)
    = G1 V c (((cfg1.win 4).blk t).view.emb (ix2 p j))
  have hemb : ((cfg1.win 4).blk t).view.emb (ix2 p j) = (ix2 (⟨400 * t.val + p.val, hr⟩ : Fin 10000) j : S10000x64.Idx) :=
    funext fun a => Fin.ext (by
      match a with
      | ⟨0, _⟩ => show win1_4.index t (0 : Fin 2) * 400 + 1 * p.val = 400 * t.val + p.val; rw [e0]; omega
      | ⟨1, _⟩ => show win1_4.index t (1 : Fin 2) * 64 + 1 * j.val = j.val; rw [e1]; omega)
  rw [hemb]
  refine (Payload.pay1_apply (iblk1 V c 0 t) (iblk1 V c 1 t) (iblk1 V c 2 t) (iblk1 V c 3 t) p j).trans ?_
  have h0 : (fun q => (iblk1 V c 0 t : Vec Ideal S400x10000 .f32) (ix2 p q))
      = fun q => adj1 V c (ix2 (⟨400 * t.val + p.val, hr⟩ : Fin 10000) q) :=
    funext fun q => blk1_0_apply V c t p q _ rfl
  have h1 : (fun q k => (iblk1 V c 1 t : Vec Ideal S10000x128 .f32) (ix2 q k)) = fun q k => sup1 V c (ix2 q k) :=
    funext fun q => funext fun k => blk1_1_apply V c t q k
  have h2 : (fun k => (iblk1 V c 2 t : Vec Ideal S1x128 .f32) (ix2 (0 : Fin 1) k)) = fun k => bias1 V c (ix2 (0 : Fin 1) k) :=
    funext fun k => blk1_2_apply V c t 0 k
  rw [h0, h1, h2, blk1_3_eq V c t]
  rfl

/-- An index of layer 1's result array is in point `t`'s block iff each coordinate is in the block's range on its axis. -/
theorem mem_blk1 (t : Fin cfg1.N) (i : S10000x64.Idx) :
    i ∈ ((cfg1.win 4).blk t).view.set ↔ ∀ a : Fin 2, win1_4.index t a * S400x64.size a ≤ (i a).val
      ∧ (i a).val < win1_4.index t a * S400x64.size a + S400x64.size a := by
  show i ∈ ((View.whole main_v3).slice (win1_4.rect t)).set ↔ _
  rw [View.set_slice_whole, Rect.mem_set_unit]
  exact Iff.rfl

/-- Row `r` of layer 1's result lies in the block of point `r / 400`: the 25 blocks tile the array. -/
theorem cover1 (i : S10000x64.Idx) :
    ∃ t : Fin cfg1.N, (cfg1.win 4).flush t = true ∧ i ∈ ((cfg1.win 4).blk t).view.set := by
  have hi0 : (i 0).val < 10000 := (i 0).isLt
  have hi1 : (i 1).val < 64 := (i 1).isLt
  have hN : cfg1.N = 25 := N_1
  obtain ⟨t, ht⟩ : ∃ t : Fin cfg1.N, t.val = (i 0).val / 400 := ⟨⟨(i 0).val / 400, by omega⟩, rfl⟩
  obtain ⟨-, -, -, -, -, -, -, -, e0, e1⟩ := idx1 t
  refine ⟨t, flush1_4 t, ?_⟩
  rw [mem_blk1]
  intro a
  match a with
  | ⟨0, _⟩ =>
    show win1_4.index t (0 : Fin 2) * 400 ≤ (i 0).val ∧ (i 0).val < win1_4.index t (0 : Fin 2) * 400 + 400
    rw [e0, ht]; omega
  | ⟨1, _⟩ =>
    show win1_4.index t (1 : Fin 2) * 64 ≤ (i 1).val ∧ (i 1).val < win1_4.index t (1 : Fin 2) * 64 + 64
    rw [e1]; omega

/-- Region 1 leaves layer 1's whole result in its output array. -/
theorem final1 (c : Dev nD) : (dat1 V c).arrAt 4 cfg1.N = G1 V c :=
  (dat1 V c).arrAt_eq_of_cover 4 (G1 V c) (fun t _ => flushed1 V c t) cover1

/-! ## Region 2 -/

/-- The block indices of region 2's windows, decided over its 25 points. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The arrays region 2 finds, at their literal types. -/
abbrev adj2 (c : Dev nD) : Vec Ideal S10000x10000 .f32 := V c main_arg1
abbrev lay2 (c : Dev nD) : Vec Ideal S10000x64 .f32 := V c main_v3
abbrev bias2 (c : Dev nD) : Vec Ideal S1x64 .f32 := V c main_v2

/-- The adjacency block at point `t` is rows `400·t …` of the adjacency. -/
theorem blk2_0_apply (c : Dev nD) (t : Fin cfg2.N) (p : Fin 400) (q : Fin 10000) (r : Fin 10000)
    (hr : r.val = 400 * t.val + p.val) :
    (iblk2 V c 0 t : Vec Ideal S400x10000 .f32) (ix2 p q) = adj2 V c (ix2 r q) := by
  obtain ⟨e0, e1, -⟩ := idx2 t
  unfold iblk2
  rw [View.read_apply]
  show V c main_arg1 _ = V c main_arg1 _
  refine congrArg (V c main_arg1) (funext fun a => Fin.ext ?_)
  match a with
  | ⟨0, _⟩ => show win2_0.index t (0 : Fin 2) * 400 + 1 * p.val = r.val; rw [e0, hr]; omega
  | ⟨1, _⟩ => show win2_0.index t (1 : Fin 2) * 10000 + 1 * q.val = q.val; rw [e1]; omega

/-- Layer 1's result's block at every point is the whole array. -/
theorem blk2_1_apply (c : Dev nD) (t : Fin cfg2.N) (q : Fin 10000) (n : Fin 64) :
    (iblk2 V c 1 t : Vec Ideal S10000x64 .f32) (ix2 q n) = lay2 V c (ix2 q n) := by
  obtain ⟨-, -, e0, e1, -⟩ := idx2 t
  unfold iblk2
  rw [View.read_apply]
  show V c main_v3 _ = V c main_v3 _
  refine congrArg (V c main_v3) (funext fun a => Fin.ext ?_)
  match a with
  | ⟨0, _⟩ => show win2_1.index t (0 : Fin 2) * 10000 + 1 * q.val = q.val; rw [e0]; omega
  | ⟨1, _⟩ => show win2_1.index t (1 : Fin 2) * 64 + 1 * n.val = n.val; rw [e1]; omega

/-- The bias row's block at every point is the whole row. -/
theorem blk2_2_apply (c : Dev nD) (t : Fin cfg2.N) (u : Fin 1) (n : Fin 64) :
    (iblk2 V c 2 t : Vec Ideal S1x64 .f32) (ix2 u n) = bias2 V c (ix2 u n) := by
  obtain ⟨-, -, -, -, e0, e1, -⟩ := idx2 t
  unfold iblk2
  rw [View.read_apply]
  show V c main_v2 _ = V c main_v2 _
  refine congrArg (V c main_v2) (funext fun a => Fin.ext ?_)
  match a with
  | ⟨0, _⟩ => show win2_2.index t (0 : Fin 2) * 1 + 1 * u.val = u.val; rw [e0]; omega
  | ⟨1, _⟩ => show win2_2.index t (1 : Fin 2) * 64 + 1 * n.val = n.val; rw [e1]; omega

/-- The network's whole result, from the arrays region 2 finds. -/
def G2 (c : Dev nD) : Vec Ideal S10000x64 .f32 := fun i =>
  Cert.Gcn.logSoftmax (Cert.Gcn.logits (fun q => adj2 V c (ix2 (i 0) q)) (fun q n => lay2 V c (ix2 q n))
    (fun n => bias2 V c (ix2 (0 : Fin 1) n))) (i 1)

/-- What point `t` of region 2 writes back is block `t` of `G2`. -/
theorem flushed2 (c : Dev nD) (t : Fin cfg2.N) :
    (dat2 V c).flushed 3 t = ((cfg2.win 3).blk t).view.read (Elt Ideal) (G2 V c) := by
  obtain ⟨-, -, -, -, -, -, e0, e1⟩ := idx2 t
  show (cfg2.win 3).cut (grid2.coords t) ((dat2 V c).after 3 t) = _
  rw [after2_3]
  unfold out2_3
  rw [View.canon_unit_zero hz]
  simp only [View.ld_unit_zero (S := S400x10000) hz, View.ld_unit_zero (S := S10000x64) hz,
    View.ld_unit_zero (S := S1x64) hz]
  funext y
  obtain ⟨p, j, rfl⟩ : ∃ (p : Fin 400) (j : Fin 64), y = ix2 p j := ⟨y 0, y 1, eq_ix2 (n0 := 400) (n1 := 64) y⟩
  have hr : 400 * t.val + p.val < 10000 := by
    have := t.isLt; have hN : cfg2.N = 25 := N_2; have := p.isLt; omega
  show k2_pay1 (iblk2 V c 0 t) (iblk2 V c 1 t) (iblk2 V c 2 t) (ix2 p j)
    = G2 V c (((cfg2.win 3).blk t).view.emb (ix2 p j))
  have hemb : ((cfg2.win 3).blk t).view.emb (ix2 p j) = (ix2 (⟨400 * t.val + p.val, hr⟩ : Fin 10000) j : S10000x64.Idx) :=
    funext fun a => Fin.ext (by
      match a with
      | ⟨0, _⟩ => show win2_3.index t (0 : Fin 2) * 400 + 1 * p.val = 400 * t.val + p.val; rw [e0]; omega
      | ⟨1, _⟩ => show win2_3.index t (1 : Fin 2) * 64 + 1 * j.val = j.val; rw [e1]; omega)
  rw [hemb]
  refine (Payload.pay2_apply (iblk2 V c 0 t) (iblk2 V c 1 t) (iblk2 V c 2 t) p j).trans ?_
  have h0 : (fun q => (iblk2 V c 0 t : Vec Ideal S400x10000 .f32) (ix2 p q))
      = fun q => adj2 V c (ix2 (⟨400 * t.val + p.val, hr⟩ : Fin 10000) q) :=
    funext fun q => blk2_0_apply V c t p q _ rfl
  have h1 : (fun q n => (iblk2 V c 1 t : Vec Ideal S10000x64 .f32) (ix2 q n)) = fun q n => lay2 V c (ix2 q n) :=
    funext fun q => funext fun n => blk2_1_apply V c t q n
  have h2 : (fun n => (iblk2 V c 2 t : Vec Ideal S1x64 .f32) (ix2 (0 : Fin 1) n)) = fun n => bias2 V c (ix2 (0 : Fin 1) n) :=
    funext fun n => blk2_2_apply V c t 0 n
  rw [h0, h1, h2]
  rfl

/-- An index of the result array is in point `t`'s block iff each coordinate is in the block's range on its axis. -/
theorem mem_blk2 (t : Fin cfg2.N) (i : S10000x64.Idx) :
    i ∈ ((cfg2.win 3).blk t).view.set ↔ ∀ a : Fin 2, win2_3.index t a * S400x64.size a ≤ (i a).val
      ∧ (i a).val < win2_3.index t a * S400x64.size a + S400x64.size a := by
  show i ∈ ((View.whole main_v4).slice (win2_3.rect t)).set ↔ _
  rw [View.set_slice_whole, Rect.mem_set_unit]
  exact Iff.rfl

/-- Row `r` of the result lies in the block of point `r / 400`. -/
theorem cover2 (i : S10000x64.Idx) :
    ∃ t : Fin cfg2.N, (cfg2.win 3).flush t = true ∧ i ∈ ((cfg2.win 3).blk t).view.set := by
  have hi0 : (i 0).val < 10000 := (i 0).isLt
  have hi1 : (i 1).val < 64 := (i 1).isLt
  have hN : cfg2.N = 25 := N_2
  obtain ⟨t, ht⟩ : ∃ t : Fin cfg2.N, t.val = (i 0).val / 400 := ⟨⟨(i 0).val / 400, by omega⟩, rfl⟩
  obtain ⟨-, -, -, -, -, -, e0, e1⟩ := idx2 t
  refine ⟨t, flush2_3 t, ?_⟩
  rw [mem_blk2]
  intro a
  match a with
  | ⟨0, _⟩ =>
    show win2_3.index t (0 : Fin 2) * 400 ≤ (i 0).val ∧ (i 0).val < win2_3.index t (0 : Fin 2) * 400 + 400
    rw [e0, ht]; omega
  | ⟨1, _⟩ =>
    show win2_3.index t (1 : Fin 2) * 64 ≤ (i 1).val ∧ (i 1).val < win2_3.index t (1 : Fin 2) * 64 + 64
    rw [e1]; omega

/-- Region 2 leaves the network's whole result in its output array. -/
theorem final2 (c : Dev nD) : (dat2 V c).arrAt 3 cfg2.N = G2 V c :=
  (dat2 V c).arrAt_eq_of_cover 3 (G2 V c) (fun t _ => flushed2 V c t) cover2

end Cert.KernelIdeal.Blocks

end
-- ==== Proof.Chain.lean ====
/-
  The kernel program's result array, after its three regions, as the two-layer graph convolution of the argument arrays.

  The buffer contents at the segment boundaries are a fold from the launch memory: region 0 writes the support into its
  output array; the two host reshapes lay the bias vectors out as [1, 128] and [1, 64] rows; region 1 writes layer 1's
  result from the adjacency, the support, the first bias row and `W2`; region 2 writes the log-softmax of the logits from the
  adjacency, layer 1's result and the second bias row. No segment writes an argument array, and each region reads its
  operands as the segment before left them, so walking the fold back gives every operand as a function of the arguments.
-/
import proofs.«100969_g15564961480953_cont_week2b_1515_2_alg».proof.Proof.Gen.KernelIdeal.Frame
import proofs.«100969_g15564961480953_cont_week2b_1515_2_alg».proof.Proof.Blocks
import proofs.«100969_g15564961480953_cont_week2b_1515_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays region 1 finds -/

/-- Region 1 finds the adjacency as launched: region 0 does not touch it and the host reshapes do not write it. -/
theorem V2_arg1 (c : Dev nD) : V2 m ρ c main_arg1 = m ((c.tc : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg1) := W1_of_ne m ρ c main_arg1 (by decide)
    _ = m ((c.tc : Thread nD τ).loc main_arg1) := rfl

/-- Region 1 finds `W2` as launched. -/
theorem V2_arg4 (c : Dev nD) : V2 m ρ c main_arg4 = m ((c.tc : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := W1_of_ne m ρ c main_arg4 (by decide)
    _ = m ((c.tc : Thread nD τ).loc main_arg4) := rfl

/-- Region 1 finds, in region 0's output array, what region 0's pipeline left there. -/
theorem V2_v0 (c : Dev nD) : V2 m ρ c main_v0 = (dat0 (V0 m ρ) c).arrAt 2 cfg0.N :=
  calc W2 m ρ c (Proc.devRef .tc main_v0)
    _ = W1 m ρ c (Proc.devRef .tc main_v0) := StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V0 m ρ) c).arrAt 2 cfg0.N := W1_arr m ρ c 2

/-- Region 1 finds the first bias as the [1, 128] row the host reshape made of the launched vector: row 0 at `k` is the
    vector at `k`. -/
theorem V2_v1_apply (c : Dev nD) (k : Fin 128) :
    (V2 m ρ c main_v1 : Vec Ideal S1x128 .f32) (ix2 (0 : Fin 1) k) = (m ((c.tc : Thread nD τ).loc main_arg3) : Vec Ideal S128 .f32) (ix1 k) := by
  have e : W2 m ρ c (Proc.devRef .tc main_v1)
      = shapeCast S1x128 (W1 m ρ c (Proc.devRef .tc main_arg3) : Vec Ideal S128 .f32) Facts₀.shapeCasts_S128_S1x128 := by
    show StableHlo.after hostOps1 (W1 m ρ c) (Proc.devRef .tc main_v1) = _
    after_results
    rfl
  have e3 : W1 m ρ c (Proc.devRef .tc main_arg3) = m ((c.tc : Thread nD τ).loc main_arg3) :=
    (W1_of_ne m ρ c main_arg3 (by decide)).trans rfl
  refine (congrFun e (ix2 (0 : Fin 1) k)).trans ?_
  refine (shapeCast_a_1a_apply _ _ (0 : Fin 1) k).trans ?_
  exact congrFun e3 (ix1 k)

/-! ## The arrays region 2 finds -/

/-- Region 2 finds the adjacency as launched: region 1 reads it through an input window. -/
theorem V3_arg1 (c : Dev nD) : V3 m ρ c main_arg1 = m ((c.tc : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = m ((c.tc : Thread nD τ).loc main_arg1) := V2_arg1 m ρ c

/-- Region 2 finds, in region 1's output array, what region 1's pipeline left there. -/
theorem V3_v3 (c : Dev nD) : V3 m ρ c main_v3 = (dat1 (V2 m ρ) c).arrAt 4 cfg1.N :=
  W3_arr m ρ c 4

/-- Region 2 finds the second bias as the [1, 64] row the host reshape made of the launched vector. -/
theorem V3_v2_apply (c : Dev nD) (n : Fin 64) :
    (V3 m ρ c main_v2 : Vec Ideal S1x64 .f32) (ix2 (0 : Fin 1) n) = (m ((c.tc : Thread nD τ).loc main_arg5) : Vec Ideal S64 .f32) (ix1 n) := by
  have e : W2 m ρ c (Proc.devRef .tc main_v2)
      = shapeCast S1x64 (W1 m ρ c (Proc.devRef .tc main_arg5) : Vec Ideal S64 .f32) Facts₀.shapeCasts_S64_S1x64 := by
    show StableHlo.after hostOps1 (W1 m ρ c) (Proc.devRef .tc main_v2) = _
    after_results
    rfl
  have e5 : W1 m ρ c (Proc.devRef .tc main_arg5) = m ((c.tc : Thread nD τ).loc main_arg5) :=
    (W1_of_ne m ρ c main_arg5 (by decide)).trans rfl
  have e32 : W3 m ρ c (Proc.devRef .tc main_v2) = W2 m ρ c (Proc.devRef .tc main_v2) := W3_of_ne m ρ c main_v2 (by decide)
  refine (congrFun (e32.trans e) (ix2 (0 : Fin 1) n)).trans ?_
  refine (shapeCast_a_1a_apply _ _ (0 : Fin 1) n).trans ?_
  exact congrFun e5 (ix1 n)

/-! ## Each region's operands as functions of the launched arguments -/

/-- Region 0's output, found by region 1: the support of the launched features and first weight matrix. -/
theorem sup1_eq (c : Dev nD) :
    (fun q k => Blocks.sup1 (V2 m ρ) c (ix2 q k)) = Cert.Gcn.support (m ((c.tc : Thread nD τ).loc main_arg0)) (m ((c.tc : Thread nD τ).loc main_arg2)) := by
  funext q k
  exact congrFun ((V2_v0 m ρ c).trans (Blocks.final0 (V0 m ρ) c)) (ix2 q k)

/-- Region 1's output, found by region 2: layer 1's whole result of the launched arguments. -/
theorem lay2_eq (c : Dev nD) :
    (fun q n => Blocks.lay2 (V3 m ρ) c (ix2 q n)) = Cert.Gcn.s2Of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext q n
  refine (congrFun ((V3_v3 m ρ c).trans (Blocks.final1 (V2 m ρ) c)) (ix2 q n)).trans ?_
  show Cert.Gcn.layer1 (fun q' => Blocks.adj1 (V2 m ρ) c (ix2 q q')) (fun q' k => Blocks.sup1 (V2 m ρ) c (ix2 q' k))
      (fun k => Blocks.bias1 (V2 m ρ) c (ix2 (0 : Fin 1) k)) (Blocks.wgt1 (V2 m ρ) c) n
    = Cert.Gcn.layer1 (fun q' => (m ((c.tc : Thread nD τ).loc main_arg1) : Vec Ideal S10000x10000 .f32) (ix2 q q'))
        (Cert.Gcn.support (m ((c.tc : Thread nD τ).loc main_arg0)) (m ((c.tc : Thread nD τ).loc main_arg2)))
        (fun k => (m ((c.tc : Thread nD τ).loc main_arg3) : Vec Ideal S128 .f32) (ix1 k)) (m ((c.tc : Thread nD τ).loc main_arg4)) n
  have hA : (fun q' => Blocks.adj1 (V2 m ρ) c (ix2 q q'))
      = fun q' => (m ((c.tc : Thread nD τ).loc main_arg1) : Vec Ideal S10000x10000 .f32) (ix2 q q') :=
    funext fun q' => congrFun (V2_arg1 m ρ c) (ix2 q q')
  have hB : (fun k => Blocks.bias1 (V2 m ρ) c (ix2 (0 : Fin 1) k))
      = fun k => (m ((c.tc : Thread nD τ).loc main_arg3) : Vec Ideal S128 .f32) (ix1 k) :=
    funext fun k => V2_v1_apply m ρ c k
  have hW : Blocks.wgt1 (V2 m ρ) c = m ((c.tc : Thread nD τ).loc main_arg4) := V2_arg4 m ρ c
  exact congrFun (congr (congr (congr (congrArg Cert.Gcn.layer1 hA) (sup1_eq m ρ c)) hB) hW) n

/-- The result array at the last segment boundary is the network's result of the argument arrays as launched. -/
theorem kernel_result (c : Dev nD) :
    W4 m ρ c (Proc.devRef .tc main_v4)
      = Cert.Gcn.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine ((W4_arr m ρ c 3).trans (Blocks.final2 (V3 m ρ) c)).trans ?_
  funext i
  obtain ⟨p, j, rfl⟩ : ∃ (p : Fin 10000) (j : Fin 64), i = ix2 p j := ⟨i 0, i 1, eq_ix2 (n0 := 10000) (n1 := 64) i⟩
  show Cert.Gcn.logSoftmax (Cert.Gcn.logits (fun q => Blocks.adj2 (V3 m ρ) c (ix2 p q)) (fun q n => Blocks.lay2 (V3 m ρ) c (ix2 q n))
      (fun n => Blocks.bias2 (V3 m ρ) c (ix2 (0 : Fin 1) n))) j
    = Cert.Gcn.logSoftmax (Cert.Gcn.logits (fun q => (m ((c.tc : Thread nD τ).loc main_arg1) : Vec Ideal S10000x10000 .f32) (ix2 p q))
        (Cert.Gcn.s2Of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
        (fun n => (m ((c.tc : Thread nD τ).loc main_arg5) : Vec Ideal S64 .f32) (ix1 n))) j
  have hA : (fun q => Blocks.adj2 (V3 m ρ) c (ix2 p q))
      = fun q => (m ((c.tc : Thread nD τ).loc main_arg1) : Vec Ideal S10000x10000 .f32) (ix2 p q) :=
    funext fun q => congrFun (V3_arg1 m ρ c) (ix2 p q)
  have hB : (fun n => Blocks.bias2 (V3 m ρ) c (ix2 (0 : Fin 1) n))
      = fun n => (m ((c.tc : Thread nD τ).loc main_arg5) : Vec Ideal S64 .f32) (ix1 n) :=
    funext fun n => V3_v2_apply m ρ c n
  exact congrArg (fun o => Cert.Gcn.logSoftmax o j) (congr (congr (congrArg Cert.Gcn.logits hA) (lay2_eq m ρ c)) hB)

end Cert.KernelIdeal.Chain

end
-- ==== Proof.RefValue.lean ====
/-
  The reference program's result, stage by stage, is the two-layer graph convolution of its arguments.

  Read at an entry (p, j): the two `dot_general`s of layer 1 are the support and the adjacency row against it; the bias is
  broadcast along the rows; `relu` is the maximum with the zero word; two more `dot_general`s and a bias give the logits;
  `log_softmax` takes the row's maximum (a fold of `max` from the word of −∞, joined once more with that word, which changes
  nothing), shifts the row by it, and subtracts the log of the sum of the shifted row's exponentials (a host sum started
  from the zero word).
-/
import proofs.«100969_g15564961480953_cont_week2b_1515_2_alg».proof.Proof.RefRead
import proofs.«100969_g15564961480953_cont_week2b_1515_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx

/-! ### The index maps of the stages, at coordinates -/

private theorem ix_l0 (q : Fin 10000) (k r : Fin 128) : lidx_main_v0 (ix2 q k) r = ix2 q r :=
  funext fun a => Fin.ext (by
    match a with
    | ⟨0, _⟩ => rfl
    | ⟨1, _⟩ => rfl)
private theorem ix_r0 (q : Fin 10000) (k r : Fin 128) : ridx_main_v0 (ix2 q k) r = ix2 r k :=
  funext fun a => Fin.ext (by
    match a with
    | ⟨0, _⟩ => rfl
    | ⟨1, _⟩ => rfl)
private theorem ix_l1 (q : Fin 10000) (k : Fin 128) (q' : Fin 10000) : lidx_main_v1 (ix2 q k) q' = ix2 q q' :=
  funext fun a => Fin.ext (by
    match a with
    | ⟨0, _⟩ => rfl
    | ⟨1, _⟩ => rfl)
private theorem ix_r1 (q : Fin 10000) (k : Fin 128) (q' : Fin 10000) : ridx_main_v1 (ix2 q k) q' = ix2 q' k :=
  funext fun a => Fin.ext (by
    match a with
    | ⟨0, _⟩ => rfl
    | ⟨1, _⟩ => rfl)
private theorem ix_b1 (q : Fin 10000) (k : Fin 128) : idx_main_v2 (idx_main_v3 (ix2 q k)) = ix1 k :=
  funext fun a => Fin.ext (by
    match a with
    | ⟨0, _⟩ => rfl)
private theorem ix_l6 (q : Fin 10000) (j : Fin 64) (k : Fin 128) : lidx_main_v6 (ix2 q j) k = ix2 q k :=
  funext fun a => Fin.ext (by
    match a with
    | ⟨0, _⟩ => rfl
    | ⟨1, _⟩ => rfl)
private theorem ix_r6 (q : Fin 10000) (j : Fin 64) (k : Fin 128) : ridx_main_v6 (ix2 q j) k = ix2 k j :=
  funext fun a => Fin.ext (by
    match a with
    | ⟨0, _⟩ => rfl
    | ⟨1, _⟩ => rfl)
private theorem ix_l7 (p : Fin 10000) (j : Fin 64) (q : Fin 10000) : lidx_main_v7 (ix2 p j) q = ix2 p q :=
  funext fun a => Fin.ext (by
    match a with
    | ⟨0, _⟩ => rfl
    | ⟨1, _⟩ => rfl)
private theorem ix_r7 (p : Fin 10000) (j : Fin 64) (q : Fin 10000) : ridx_main_v7 (ix2 p j) q = ix2 q j :=
  funext fun a => Fin.ext (by
    match a with
    | ⟨0, _⟩ => rfl
    | ⟨1, _⟩ => rfl)
private theorem ix_b2 (p : Fin 10000) (j : Fin 64) : idx_main_v8 (idx_main_v9 (ix2 p j)) = ix1 j :=
  funext fun a => Fin.ext (by
    match a with
    | ⟨0, _⟩ => rfl)
private theorem ix_colMax (p : Fin 10000) (c : Fin 64) : idx_main_call1_v3 (idx_main_call1_v4 (ix2 p c)) = ix1 p :=
  funext fun a => Fin.ext (by
    match a with
    | ⟨0, _⟩ => rfl)
private theorem ix_colSum (p : Fin 10000) (c : Fin 64) : idx_main_call1_v8 (idx_main_call1_v10 (ix2 p c)) = ix1 p :=
  funext fun a => Fin.ext (by
    match a with
    | ⟨0, _⟩ => rfl)
private theorem ix_row (p : Fin 10000) (n : Fin 64) : idx_main_call1_v7 (ix1 p) n = ix2 p n :=
  funext fun a => Fin.ext (by
    match a with
    | ⟨0, _⟩ => rfl
    | ⟨1, _⟩ => rfl)

/-! ### The stages, bottom-up -/

section Stages

variable (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))

/-- The first product at (q, k): the support. -/
theorem v0_at (q : Fin 10000) (k : Fin 128) :
    val_main_v0 (F := Ideal) x0 x2 (ix2 q k) = Cert.Gcn.support x0 x2 q k := by
  rw [val_main_v0_apply]
  unfold Cert.Gcn.support
  refine Finset.sum_congr rfl fun r _ => ?_
  rw [ix_l0, ix_r0]

/-- The clipped first layer at (q, k): the hidden activation of node `q`. -/
theorem v5_at (q : Fin 10000) (k : Fin 128) :
    val_main_v5 (F := Ideal) x0 x1 x2 x3 (ix2 q k)
      = Cert.Gcn.hidden (fun q' => x1 (ix2 q q')) (Cert.Gcn.support x0 x2) (fun k => x3 (ix1 k)) k := by
  have h1 : val_main_v1 (F := Ideal) x0 x1 x2 (ix2 q k) = ∑ q' : Fin 10000, x1 (ix2 q q') * Cert.Gcn.support x0 x2 q' k := by
    rw [val_main_v1_apply]
    refine Finset.sum_congr rfl fun q' _ => ?_
    rw [ix_l1, ix_r1, v0_at]
  have h3 : val_main_v3 (F := Ideal) x3 (ix2 q k) = x3 (ix1 k) := by
    rw [val_main_v3_apply, val_main_v2_apply, ix_b1]
  have hz : val_main_call0_v0 (F := Ideal) (ix2 q k) = Ideal.ofBits .f32 0x00000000#32 := by
    rw [val_main_call0_v0_apply]
    rfl
  rw [val_main_v5_apply, val_main_v4_apply, h1, h3, hz]
  rfl

/-- Layer 1's result at (q, j). -/
theorem v6_at (q : Fin 10000) (j : Fin 64) :
    val_main_v6 (F := Ideal) x0 x1 x2 x3 x4 (ix2 q j) = Cert.Gcn.s2Of x0 x1 x2 x3 x4 q j := by
  rw [val_main_v6_apply]
  unfold Cert.Gcn.s2Of Cert.Gcn.layer1
  refine Finset.sum_congr rfl fun k _ => ?_
  rw [ix_l6, ix_r6, v5_at]

/-- The biased second layer at (p, j): the logits of node `p`. -/
theorem v10_at (p : Fin 10000) (j : Fin 64) :
    val_main_v10 (F := Ideal) x0 x1 x2 x3 x4 x5 (ix2 p j)
      = Cert.Gcn.logits (fun q => x1 (ix2 p q)) (Cert.Gcn.s2Of x0 x1 x2 x3 x4) (fun n => x5 (ix1 n)) j := by
  have h7 : val_main_v7 (F := Ideal) x0 x1 x2 x3 x4 (ix2 p j)
      = ∑ q : Fin 10000, x1 (ix2 p q) * Cert.Gcn.s2Of x0 x1 x2 x3 x4 q j := by
    rw [val_main_v7_apply]
    refine Finset.sum_congr rfl fun q _ => ?_
    rw [ix_l7, ix_r7, v6_at]
  have h9 : val_main_v9 (F := Ideal) x5 (ix2 p j) = x5 (ix1 j) := by
    rw [val_main_v9_apply, val_main_v8_apply, ix_b2]
  rw [val_main_v10_apply, h7, h9]
  rfl

/-- The row maximum at `p`: the fold of `max` over the row from the word of −∞; joining it once more with that word
    changes nothing, the fold being above its starting value. -/
theorem rowMax_at (p : Fin 10000) :
    val_main_call1_v2 (F := Ideal) x0 x1 x2 x3 x4 x5 (ix1 p) = Cert.Gcn.rowMax (fun n => val_main_v10 (F := Ideal) x0 x1 x2 x3 x4 x5 (ix2 p n)) := by
  have hfold : val_main_call1_v0 (F := Ideal) x0 x1 x2 x3 x4 x5 (ix1 p) = Cert.Gcn.rowMax (fun n => val_main_v10 (F := Ideal) x0 x1 x2 x3 x4 x5 (ix2 p n)) :=
    (Host.reduce_eq_fold_single (FloatOps.maximumf (F := Ideal) (φ := .f32)) (val_main_v10 (F := Ideal) x0 x1 x2 x3 x4 x5)
        (val_main_call1_cst (F := Ideal)) reducesTo_S10000x64_S10000_d1 (by decide) h_S_ (ix1 p)).trans
      (congrArg (fun o : Fin 64 → EReal => (Finset.univ : Finset (Fin 64)).fold max (Ideal.ofBits .f32 0xFF800000#32) o)
        (funext fun n => congrArg (val_main_v10 (F := Ideal) x0 x1 x2 x3 x4 x5) (funext fun ax => Fin.ext (by
          match ax with
          | ⟨0, _⟩ => rfl
          | ⟨1, _⟩ => rfl))))
  have hb : val_main_call1_v1 (F := Ideal) (ix1 p) = Ideal.ofBits .f32 0xFF800000#32 := by
    rw [val_main_call1_v1_apply]
    rfl
  rw [val_main_call1_v2_apply, hb, hfold]
  exact max_eq_right ((Finset.le_fold_max _).mpr (Or.inl le_rfl))

/-- The shifted logits at (p, c): the entry minus its row's maximum. -/
theorem shift_at (p : Fin 10000) (c : Fin 64) :
    val_main_call1_v5 (F := Ideal) x0 x1 x2 x3 x4 x5 (ix2 p c)
      = val_main_v10 (F := Ideal) x0 x1 x2 x3 x4 x5 (ix2 p c) - Cert.Gcn.rowMax (fun n => val_main_v10 (F := Ideal) x0 x1 x2 x3 x4 x5 (ix2 p n)) := by
  have h4 : val_main_call1_v4 (F := Ideal) x0 x1 x2 x3 x4 x5 (ix2 p c) = Cert.Gcn.rowMax (fun n => val_main_v10 (F := Ideal) x0 x1 x2 x3 x4 x5 (ix2 p n)) := by
    rw [val_main_call1_v4_apply, val_main_call1_v3_apply, ix_colMax, rowMax_at]
  exact congrArg (fun m : EReal => val_main_v10 (F := Ideal) x0 x1 x2 x3 x4 x5 (ix2 p c) - m) h4

/-- The last stage at (p, j): the log-softmax of the row of logits. -/
theorem v11_at (p : Fin 10000) (j : Fin 64) :
    val_main_v11 (F := Ideal) x0 x1 x2 x3 x4 x5 (ix2 p j) = Cert.Gcn.logSoftmax (fun n => val_main_v10 (F := Ideal) x0 x1 x2 x3 x4 x5 (ix2 p n)) j := by
  have hsum : val_main_call1_v7 (F := Ideal) x0 x1 x2 x3 x4 x5 (ix1 p)
      = ∑ n : Fin 64, Ideal.exp (val_main_v10 (F := Ideal) x0 x1 x2 x3 x4 x5 (ix2 p n) - Cert.Gcn.rowMax (fun n => val_main_v10 (F := Ideal) x0 x1 x2 x3 x4 x5 (ix2 p n))) := by
    rw [val_main_call1_v7_apply]
    show Ideal.ofBits .f32 0x00000000#32 + _ = _
    rw [Ideal.ofBits_zero_f32, zero_add]
    refine Finset.sum_congr rfl fun n _ => ?_
    exact (congrArg (val_main_call1_v6 (F := Ideal) x0 x1 x2 x3 x4 x5) (ix_row p n)).trans
      (congrArg Ideal.exp (shift_at x0 x1 x2 x3 x4 x5 p n))
  have hlog : val_main_call1_v10 (F := Ideal) x0 x1 x2 x3 x4 x5 (ix2 p j)
      = Ideal.log (∑ n : Fin 64, Ideal.exp (val_main_v10 (F := Ideal) x0 x1 x2 x3 x4 x5 (ix2 p n) - Cert.Gcn.rowMax (fun n => val_main_v10 (F := Ideal) x0 x1 x2 x3 x4 x5 (ix2 p n)))) := by
    rw [val_main_call1_v10_apply, val_main_call1_v9_apply, val_main_call1_v8_apply, ix_colSum, hsum,
      Ideal.hostUnary_log_def]
  rw [val_main_v11_apply, shift_at, hlog]
  rfl

end Stages

/-- The reference's last stage is the specification's array. -/
theorem ref_eq_out (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v11 (F := Ideal) x0 x1 x2 x3 x4 x5 = Cert.Gcn.out x0 x1 x2 x3 x4 x5 := by
  funext i
  obtain ⟨p, j, rfl⟩ : ∃ (p : Fin 10000) (j : Fin 64), i = ix2 p j := ⟨i 0, i 1, eq_ix2 (n0 := 10000) (n1 := 64) i⟩
  rw [v11_at, Cert.Gcn.out_apply]
  unfold Cert.Gcn.outAt
  exact congrArg (fun o => Cert.Gcn.logSoftmax o j) (funext fun n => v10_at x0 x1 x2 x3 x4 x5 p n)

end Cert.ReferenceIdeal.RefValue

end
-- ==== Proof.lean ====
/-
  The certificate of a two-layer dense graph convolution: three kernel regions — the support `x · W1`; per block of 400
  adjacency rows, `relu (adj · support + b1) · W2`; per block of 400 adjacency rows, the log-softmax of `adj · layer1 + b2` —
  against the plain composition `log_softmax (adj · (relu (adj · (x · W1) + b1) · W2) + b2)`.

  On the extended reals both programs compute the same sums with the same grouping: a matrix product into a zero
  accumulator and a `dot_general` are one sum over the contracted coordinate, a lane reduction and a host reduction are
  one fold over the row, and a format change is the identity. Each block of 400 result rows depends on the adjacency only
  through the matching 400 rows, so the 25 blocks are the rows of one whole-array function (Proof/Blocks.lean) and the
  regions chain through the buffers they leave each other (Proof/Chain.lean); the reference's stages read the same
  function (Proof/RefValue.lean). No step uses that the inputs are finite.

  The three frames: each program's run with the result dropped. `preserves` has no entry to state.
-/
import proofs.«100969_g15564961480953_cont_week2b_1515_2_alg».proof.Defs
import proofs.«100969_g15564961480953_cont_week2b_1515_2_alg».proof.Proof.Gen.Kernel
import proofs.«100969_g15564961480953_cont_week2b_1515_2_alg».proof.Proof.Gen.Kernel.Skeleton
import proofs.«100969_g15564961480953_cont_week2b_1515_2_alg».proof.Proof.Gen.Kernel.Launch
import proofs.«100969_g15564961480953_cont_week2b_1515_2_alg».proof.Proof.Gen.Kernel.Points
import proofs.«100969_g15564961480953_cont_week2b_1515_2_alg».proof.Proof.Gen.Kernel.Frame
import proofs.«100969_g15564961480953_cont_week2b_1515_2_alg».proof.Proof.Gen.KernelIdeal
import proofs.«100969_g15564961480953_cont_week2b_1515_2_alg».proof.Proof.Gen.KernelIdeal.Skeleton
import proofs.«100969_g15564961480953_cont_week2b_1515_2_alg».proof.Proof.Gen.KernelIdeal.Launch
import proofs.«100969_g15564961480953_cont_week2b_1515_2_alg».proof.Proof.Gen.KernelIdeal.Points
import proofs.«100969_g15564961480953_cont_week2b_1515_2_alg».proof.Proof.Gen.KernelIdeal.Frame
import proofs.«100969_g15564961480953_cont_week2b_1515_2_alg».proof.Proof.Gen.ReferenceIdeal
import proofs.«100969_g15564961480953_cont_week2b_1515_2_alg».proof.Proof.Gen.Pre_finite_inputs
import proofs.«100969_g15564961480953_cont_week2b_1515_2_alg».proof.Proof.KernelRun
import proofs.«100969_g15564961480953_cont_week2b_1515_2_alg».proof.Proof.Chain
import proofs.«100969_g15564961480953_cont_week2b_1515_2_alg».proof.Proof.RefRun
import proofs.«100969_g15564961480953_cont_week2b_1515_2_alg».proof.Proof.RefRead
import proofs.«100969_g15564961480953_cont_week2b_1515_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the six arguments, the kernel's result array and the reference's both end at the
    network's result of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.kernel_result m ρ c), (h c).2⟩)
      (Cert.KernelIdeal.GenRun.run_main (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.ReferenceIdeal.ReadP.val_main_v11_eq, Cert.ReferenceIdeal.RefValue.ref_eq_out, h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
